-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S50000x10 : Shape := ⟨2, ![50000, 10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S50000x256 .f32) (main_arg1 : FVec F S50000x256 .f32) (main_arg2 : FVec F S256x256 .f32) (main_arg3 : FVec F S256x256 .f32) (main_arg4 : IVec S50000x10 32) (main_arg5 : IVec S50000x10 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S50000x256 : Shape := ⟨2, ![50000, 256]⟩
abbrev S256x256 : Shape := ⟨2, ![256, 256]⟩
abbrev S50000x10 : Shape := ⟨2, ![50000, 10]⟩
abbrev S256x512 : Shape := ⟨2, ![256, 512]⟩
abbrev S50000x512 : Shape := ⟨2, ![50000, 512]⟩
abbrev S2000x256 : Shape := ⟨2, ![2000, 256]⟩
abbrev S2000x512 : Shape := ⟨2, ![2000, 512]⟩
abbrev S_ : Shape := ⟨0, ![]⟩
abbrev S50000x10x1 : Shape := ⟨3, ![50000, 10, 1]⟩
abbrev S50000x10x256 : Shape := ⟨3, ![50000, 10, 256]⟩
abbrev S50000 : Shape := ⟨1, ![50000]⟩
abbrev S50000x1 : Shape := ⟨2, ![50000, 1]⟩
abbrev S1x50000x256 : Shape := ⟨3, ![1, 50000, 256]⟩
abbrev S2x50000x256 : Shape := ⟨3, ![2, 50000, 256]⟩

abbrev nBuf : Space → Nat
  | .hbm => 75
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S256x256, .f32⟩
  | .hbm, ⟨3, _⟩ => ⟨S256x256, .f32⟩
  | .hbm, ⟨4, _⟩ => ⟨S50000x10, .i32⟩
  | .hbm, ⟨5, _⟩ => ⟨S50000x10, .i32⟩
  | .hbm, ⟨6, _⟩ => ⟨S256x512, .f32⟩
  | .hbm, ⟨7, _⟩ => ⟨S256x512, .bf16⟩
  | .hbm, ⟨8, _⟩ => ⟨S50000x512, .f32⟩
  | .hbm, ⟨9, _⟩ => ⟨S50000x512, .f32⟩
  | .hbm, ⟨10, _⟩ => ⟨S50000x256, .f32⟩
  | .hbm, ⟨11, _⟩ => ⟨S50000x256, .f32⟩
  | .hbm, ⟨12, _⟩ => ⟨S50000x256, .f32⟩
  | .hbm, ⟨13, _⟩ => ⟨S50000x256, .f32⟩
  | .hbm, ⟨14, _⟩ => ⟨S_, .i32⟩
  | .hbm, ⟨15, _⟩ => ⟨S50000x10, .i32⟩
  | .hbm, ⟨16, _⟩ => ⟨S50000x10, .i1⟩
  | .hbm, ⟨17, _⟩ => ⟨S_, .i32⟩
  | .hbm, ⟨18, _⟩ => ⟨S50000x10, .i32⟩
  | .hbm, ⟨19, _⟩ => ⟨S50000x10, .i1⟩
  | .hbm, ⟨20, _⟩ => ⟨S_, .i32⟩
  | .hbm, ⟨21, _⟩ => ⟨S50000x10, .i32⟩
  | .hbm, ⟨22, _⟩ => ⟨S50000x10, .i32⟩
  | .hbm, ⟨23, _⟩ => ⟨S50000x10, .i32⟩
  | .hbm, ⟨24, _⟩ => ⟨S50000x10x1, .i32⟩
  | .hbm, ⟨25, _⟩ => ⟨S50000x10x256, .f32⟩
  | .hbm, ⟨26, _⟩ => ⟨S50000x10x1, .i1⟩
  | .hbm, ⟨27, _⟩ => ⟨S50000x10x1, .f32⟩
  | .hbm, ⟨28, _⟩ => ⟨S50000x10x256, .f32⟩
  | .hbm, ⟨29, _⟩ => ⟨S50000x10x256, .f32⟩
  | .hbm, ⟨30, _⟩ => ⟨S50000x10, .i32⟩
  | .hbm, ⟨31, _⟩ => ⟨S_, .i32⟩
  | .hbm, ⟨32, _⟩ => ⟨S50000, .i32⟩
  | .hbm, ⟨33, _⟩ => ⟨S_, .i32⟩
  | .hbm, ⟨34, _⟩ => ⟨S50000, .i32⟩
  | .hbm, ⟨35, _⟩ => ⟨S50000, .i32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S50000x10, .i32⟩
  | .hbm, ⟨44, _⟩ => ⟨S50000x10, .i1⟩
  | .hbm, ⟨45, _⟩ => ⟨S_, .i32⟩
  | .hbm, ⟨46, _⟩ => ⟨S50000x10, .i32⟩
  | .hbm, ⟨47, _⟩ => ⟨S50000x10, .i1⟩
  | .hbm, ⟨48, _⟩ => ⟨S_, .i32⟩
  | .hbm, ⟨49, _⟩ => ⟨S50000x10, .i32⟩
  | .hbm, ⟨50, _⟩ => ⟨S50000x10, .i32⟩
  | .hbm, ⟨51, _⟩ => ⟨S50000x10, .i32⟩
  | .hbm, ⟨52, _⟩ => ⟨S50000x10x1, .i32⟩
  | .hbm, ⟨53, _⟩ => ⟨S50000x10x256, .f32⟩
  | .hbm, ⟨54, _⟩ => ⟨S50000x10x1, .i1⟩
  | .hbm, ⟨55, _⟩ => ⟨S50000x10x1, .f32⟩
  | .hbm, ⟨56, _⟩ => ⟨S50000x10x256, .f32⟩
  | .hbm, ⟨57, _⟩ => ⟨S50000x10x256, .f32⟩
  | .hbm, ⟨58, _⟩ => ⟨S50000x10, .i32⟩
  | .hbm, ⟨59, _⟩ => ⟨S_, .i32⟩
  | .hbm, ⟨60, _⟩ => ⟨S50000, .i32⟩
  | .hbm, ⟨61, _⟩ => ⟨S_, .i32⟩
  | .hbm, ⟨62, _⟩ => ⟨S50000, .i32⟩
  | .hbm, ⟨63, _⟩ => ⟨S50000, .i32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x50000x256, .f32⟩
  | .hbm, ⟨73, _⟩ => ⟨S1x50000x256, .f32⟩
  | .hbm, ⟨74, _⟩ => ⟨S2x50000x256, .f32⟩
  | .local _ .vmem, ⟨0, _⟩ => ⟨S2000x256, .f32⟩
  | .local _ .vmem, ⟨1, _⟩ => ⟨S2000x256, .f32⟩
  | .local _ .vmem, ⟨2, _⟩ => ⟨S256x512, .bf16⟩
  | .local _ .vmem, ⟨3, _⟩ => ⟨S2000x512, .f32⟩
  | .local _ .vmem, ⟨4, _⟩ => ⟨S2000x512, .f32⟩
  | .local _ .vmem, ⟨5, _⟩ => ⟨S2000x256, .f32⟩
  | .local _ .vmem, ⟨6, _⟩ => ⟨S2000x256, .f32⟩
  | .local _ .vmem, ⟨7, _⟩ => ⟨S256x512, .bf16⟩
  | .local _ .vmem, ⟨8, _⟩ => ⟨S2000x512, .f32⟩
  | .local _ .vmem, ⟨9, _⟩ => ⟨S2000x512, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_c_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S256x256_S256x256_S256x512_d1 : Shape.Concatenates [S256x256, S256x256] S256x512 1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x512_S2000x512_0_0 : ∀ a, (![0, 0] : Fin 2 → Nat) a + S2000x512.size a ≤ S2000x512.size a
  h_S2000x512 : 0 < S2000x512.numel
  slices_S50000x512_S50000x256_0_0 : S50000x512.Slices ![0, 0] S50000x256
  slices_S50000x512_S50000x256_0_256 : S50000x512.Slices ![0, 256] S50000x256
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x256_0_1_2 : S50000x10x1.BroadcastsInDim S50000x10x256 (![0, 1, 2] : Fin 3 → Fin S50000x10x256.rank)
  natLt_1_32 : 1 < 32
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  reducesTo_S50000x10x256_S50000x256_d1 : S50000x10x256.ReducesTo [1] S50000x256
  bcast_S50000x1_S50000x256_0_1 : S50000x1.BroadcastsInDim S50000x256 (![0, 1] : Fin 2 → Fin S50000x256.rank)
  shapeCasts_S2000x256_S2000x256 : S2000x256.ShapeCasts S2000x256
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S2000x256_S256x512_S2000x512_1_0_0_1_n_n_wf : DotDims.WF S2000x256 S256x512 S2000x512 [1] [0] [0] [1] [] []
  gather_S50000x256_S50000x10x1_S50000x10x256_2_0_n_n_0_2_1256_wf : GatherDims.WF S50000x256 S50000x10x1 S50000x10x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S50000x256.size a
  hwx3_1 : ∀ i : grid3.Coords, EltTy.bits .f32 = 32 ∨ (Rect.block (s := S50000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x256_S50000x10x1_S50000x10x256_2_0_n_n_0_2_1256 : GatherDims S50000x256 S50000x10x1 S50000x10x256 where
  offsetDims := [2]
  collapsedSliceDims := [0]
  operandBatchingDims := []
  startIndicesBatchingDims := []
  startIndexMap := [0]
  indexVectorDim := 2
  sliceSizes := ![1, 256]
  wf := gather_S50000x256_S50000x10x1_S50000x10x256_2_0_n_n_0_2_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v6) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v51) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S50000x10 : Shape := ⟨2, ![50000, 10]⟩
abbrev S_ : Shape := ⟨0, ![]⟩
abbrev S50000x10x1 : Shape := ⟨3, ![50000, 10, 1]⟩
abbrev S50000x10x256 : Shape := ⟨3, ![50000, 10, 256]⟩
abbrev S50000 : Shape := ⟨1, ![50000]⟩
abbrev S50000x1 : Shape := ⟨2, ![50000, 1]⟩
abbrev S1x50000x256 : Shape := ⟨3, ![1, 50000, 256]⟩
abbrev S2x50000x256 : Shape := ⟨3, ![2, 50000, 256]⟩

abbrev nBuf : Space → Nat
  | .hbm => 77
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S256x256, .f32⟩
  | .hbm, ⟨3, _⟩ => ⟨S256x256, .f32⟩
  | .hbm, ⟨4, _⟩ => ⟨S50000x10, .i32⟩
  | .hbm, ⟨5, _⟩ => ⟨S50000x10, .i32⟩
  | .hbm, ⟨6, _⟩ => ⟨S50000x256, .f32⟩
  | .hbm, ⟨7, _⟩ => ⟨S50000x256, .f32⟩
  | .hbm, ⟨8, _⟩ => ⟨S_, .i32⟩
  | .hbm, ⟨9, _⟩ => ⟨S50000x10, .i32⟩
  | .hbm, ⟨10, _⟩ => ⟨S50000x10, .i1⟩
  | .hbm, ⟨11, _⟩ => ⟨S_, .i32⟩
  | .hbm, ⟨12, _⟩ => ⟨S50000x10, .i32⟩
  | .hbm, ⟨13, _⟩ => ⟨S50000x10, .i1⟩
  | .hbm, ⟨14, _⟩ => ⟨S_, .i32⟩
  | .hbm, ⟨15, _⟩ => ⟨S50000x10, .i32⟩
  | .hbm, ⟨16, _⟩ => ⟨S50000x10, .i32⟩
  | .hbm, ⟨17, _⟩ => ⟨S50000x10, .i32⟩
  | .hbm, ⟨18, _⟩ => ⟨S50000x10x1, .i32⟩
  | .hbm, ⟨19, _⟩ => ⟨S50000x10x256, .f32⟩
  | .hbm, ⟨20, _⟩ => ⟨S50000x10x1, .i1⟩
  | .hbm, ⟨21, _⟩ => ⟨S50000x10x1, .f32⟩
  | .hbm, ⟨22, _⟩ => ⟨S50000x10x256, .f32⟩
  | .hbm, ⟨23, _⟩ => ⟨S50000x10x256, .f32⟩
  | .hbm, ⟨24, _⟩ => ⟨S50000x10, .i32⟩
  | .hbm, ⟨25, _⟩ => ⟨S_, .i32⟩
  | .hbm, ⟨26, _⟩ => ⟨S50000, .i32⟩
  | .hbm, ⟨27, _⟩ => ⟨S_, .i32⟩
  | .hbm, ⟨28, _⟩ => ⟨S50000, .i32⟩
  | .hbm, ⟨29, _⟩ => ⟨S50000, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S50000x10, .i32⟩
  | .hbm, ⟨44, _⟩ => ⟨S50000x10, .i1⟩
  | .hbm, ⟨45, _⟩ => ⟨S_, .i32⟩
  | .hbm, ⟨46, _⟩ => ⟨S50000x10, .i32⟩
  | .hbm, ⟨47, _⟩ => ⟨S50000x10, .i1⟩
  | .hbm, ⟨48, _⟩ => ⟨S_, .i32⟩
  | .hbm, ⟨49, _⟩ => ⟨S50000x10, .i32⟩
  | .hbm, ⟨50, _⟩ => ⟨S50000x10, .i32⟩
  | .hbm, ⟨51, _⟩ => ⟨S50000x10, .i32⟩
  | .hbm, ⟨52, _⟩ => ⟨S50000x10x1, .i32⟩
  | .hbm, ⟨53, _⟩ => ⟨S50000x10x256, .f32⟩
  | .hbm, ⟨54, _⟩ => ⟨S50000x10x1, .i1⟩
  | .hbm, ⟨55, _⟩ => ⟨S50000x10x1, .f32⟩
  | .hbm, ⟨56, _⟩ => ⟨S50000x10x256, .f32⟩
  | .hbm, ⟨57, _⟩ => ⟨S50000x10x256, .f32⟩
  | .hbm, ⟨58, _⟩ => ⟨S50000x10, .i32⟩
  | .hbm, ⟨59, _⟩ => ⟨S_, .i32⟩
  | .hbm, ⟨60, _⟩ => ⟨S50000, .i32⟩
  | .hbm, ⟨61, _⟩ => ⟨S_, .i32⟩
  | .hbm, ⟨62, _⟩ => ⟨S50000, .i32⟩
  | .hbm, ⟨63, _⟩ => ⟨S50000, .i32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S1x50000x256, .f32⟩
  | .hbm, ⟨75, _⟩ => ⟨S1x50000x256, .f32⟩
  | .hbm, ⟨76, _⟩ => ⟨S2x50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x256_0_1_2 : S50000x10x1.BroadcastsInDim S50000x10x256 (![0, 1, 2] : Fin 3 → Fin S50000x10x256.rank)
  natLt_1_32 : 1 < 32
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  reducesTo_S50000x10x256_S50000x256_d1 : S50000x10x256.ReducesTo [1] S50000x256
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S50000x256_S256x256_S50000x256_1_0_0_1_n_n_wf : DotDims.WF S50000x256 S256x256 S50000x256 [1] [0] [0] [1] [] []
  gather_S50000x256_S50000x10x1_S50000x10x256_2_0_n_n_0_2_1256_wf : GatherDims.WF S50000x256 S50000x10x1 S50000x10x256 [2] [0] [] [0] [] 2 ![1, 256]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S50000x10x1_S50000x10x256_2_0_n_n_0_2_1256 : GatherDims S50000x256 S50000x10x1 S50000x10x256 where
  offsetDims := [2]
  collapsedSliceDims := [0]
  operandBatchingDims := []
  startIndicesBatchingDims := []
  startIndexMap := [0]
  indexVectorDim := 2
  sliceSizes := ![1, 256]
  wf := gather_S50000x256_S50000x10x1_S50000x10x256_2_0_n_n_0_2_1256_wf

class Facts : Prop extends Facts₀ where

variable [Facts]
-- ==== Proof.Spec.lean ====
/-
  What the kernel's program computes, stated once over whole arrays.

  For one protein with features Z : [50000, 256], weights Wr, Wnr : [256, 256] and neighbour table nb : [50000, 10]:
  the projection Y = Z · [Wr | Wnr] : [50000, 512] (the two weight matrices side by side, so the first 256 columns of Y
  are Z · Wr and the last 256 are Z · Wnr); the neighbour mean of a table T : [50000, 256], whose row i is the sum over
  the ten slots s of T[nb[i, s]] (a negative index counted from the end) times the indicator of nb[i, s] > -1, divided
  by max(number of such slots, 1); and the result max(Y[:, :256] + mean(Y[:, 256:], nb), 0).
-/
import proofs.«127528_j27058293965311_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Gen Idealize.ShloMosaic Idealize.ShloMosaic.TcCoe
open scoped BigOperators

variable {F : FTy → Type} [FloatOps F]

/-- The masked mean of the gathered neighbour rows: row `i` of the result is
    `(∑ s, tbl[wrap nb[i, s]] · [nb[i, s] > -1]) / max (#{s | nb[i, s] > -1}) 1`, where `wrap` adds 50000 to a negative
    index. Both programs apply exactly these operations to their table and their index array. -/
def neighbourMean (tbl : (⟨S50000x256, .f32⟩ : BufTy).Contents (Elt F)) (nb : (⟨S50000x10, .i32⟩ : BufTy).Contents (Elt F)) :
    (⟨S50000x256, .f32⟩ : BufTy).Contents (Elt F) :=
  Host.divf
    (Host.reduceAdd
      (mulf
        (Host.gather gather_S50000x256_S50000x10x1_S50000x10x256_2_0_n_n_0_2_1256 tbl
          (broadcastInDim S50000x10x1 ![0, 1] bcast_S50000x10_S50000x10x1_0_1
            (select (cmpi .slt nb (broadcastInDim S50000x10 ![] bcast_S_S50000x10 (constantI S_ 32 0#32)))
              (addi nb (broadcastInDim S50000x10 ![] bcast_S_S50000x10 (constantI S_ 32 50000#32))) nb)))
        (broadcastInDim S50000x10x256 ![0, 1, 2] bcast_S50000x10x1_S50000x10x256_0_1_2
          (uitofp (F := F) .f32 (broadcastInDim S50000x10x1 ![0, 1] bcast_S50000x10_S50000x10x1_0_1
            (cmpi .sgt nb (broadcastInDim S50000x10 ![] bcast_S_S50000x10 (constantI S_ 32 4294967295#32)))))))
      (constant S_ .f32 0x00000000#32) reducesTo_S50000x10x256_S50000x256_d1 h_S_)
    (broadcastInDim S50000x256 ![0, 1] bcast_S50000x1_S50000x256_0_1
      (broadcastInDim S50000x1 ![0] bcast_S50000_S50000x1_0
        (sitofp (F := F) .f32
          (maxsi
            (Host.reduce IntOp.addi
              (extui 32 (cmpi .sgt nb (broadcastInDim S50000x10 ![] bcast_S_S50000x10 (constantI S_ 32 4294967295#32))) natLt_1_32)
              (constantI S_ 32 0#32) reducesTo_S50000x10_S50000_d1 h_S_)
            (broadcastInDim S50000 ![] bcast_S_S50000 (constantI S_ 32 1#32))))))

/-- `max (a + b) 0`, element by element, on whole [50000, 256] arrays. -/
def addRelu (a b : FVec F S50000x256 .f32) : FVec F S50000x256 .f32 :=
  maximumf (addf a b) (broadcast S50000x256 (Scalar.ofBits .f32 0x00000000#32))

/-- The first 256 columns of a [50000, 512] array. -/
def colsLo (y : (⟨S50000x512, .f32⟩ : BufTy).Contents (Elt F)) : (⟨S50000x256, .f32⟩ : BufTy).Contents (Elt F) :=
  extractStridedSlice S50000x256 ![0, 0] y slices_S50000x512_S50000x256_0_0

/-- The last 256 columns of a [50000, 512] array. -/
def colsHi (y : (⟨S50000x512, .f32⟩ : BufTy).Contents (Elt F)) : (⟨S50000x256, .f32⟩ : BufTy).Contents (Elt F) :=
  extractStridedSlice S50000x256 ![0, 256] y slices_S50000x512_S50000x256_0_256

/-- The two weight matrices side by side, [256, 512], as the projection kernel is handed them. -/
def weights (wr wnr : (⟨S256x256, .f32⟩ : BufTy).Contents (Elt F)) : (⟨S256x512, .bf16⟩ : BufTy).Contents (Elt F) :=
  truncf .bf16 (concatenate S256x512 1 [⟨S256x256, wr⟩, ⟨S256x256, wnr⟩] concatenates_S256x256_S256x256_S256x512_d1) bitsLt_bf16_f32

/-- The projection on the extended reals: `Y[i, j] = ∑ k, Z[i, k] · W[k, j]`. -/
def proj (z : S50000x256.Idx → EReal) (w : S256x512.Idx → EReal) : S50000x512.Idx → EReal :=
  fun i => ∑ k : Fin 256, z (ValueIdx.ix2 (⟨(i 0).val, (i 0).isLt⟩ : Fin 50000) k) * w (ValueIdx.ix2 k (⟨(i 1).val, (i 1).isLt⟩ : Fin 512))

end Cert.KernelIdeal.Spec

end
-- ==== Proof.Chain.lean ====
/-
  The contents of the result buffer after @main, read back through the program's seven segments.

  The last host stretch stacks the two proteins' outputs; each output is what an add-and-clamp region leaves; the
  operands of those regions are written by the middle host stretch: the first 256 columns of a projection, and the
  neighbour mean of its last 256 columns; each projection is what a projection region leaves, from an argument array
  and the weight array the first host stretch writes. No segment writes an argument array.
-/
import proofs.«127528_j27058293965311_1_alg».proof.Proof.Gen.KernelIdeal.Frame
import proofs.«127528_j27058293965311_1_alg».proof.Proof.Spec
import Idealize.ShloMosaic.Lib.StableHlo.Run

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- Two [50000, 256] arrays stacked along a new leading axis. -/
def stacked (a b : (⟨S50000x256, .f32⟩ : BufTy).Contents (Elt F)) : (⟨S2x50000x256, .f32⟩ : BufTy).Contents (Elt F) :=
  concatenate S2x50000x256 0
    [⟨S1x50000x256, broadcastInDim S1x50000x256 ![1, 2] bcast_S50000x256_S1x50000x256_1_2 a⟩,
     ⟨S1x50000x256, broadcastInDim S1x50000x256 ![1, 2] bcast_S50000x256_S1x50000x256_1_2 b⟩]
    concatenates_S1x50000x256_S1x50000x256_S2x50000x256_d0

/-! ## The last host stretch -/

/-- The result buffer holds the two add-and-clamp outputs stacked. -/
theorem last (c : Dev nD) :
    W7 m ρ c (Proc.devRef .tc main_v56)
      = stacked (W6 m ρ c (Proc.devRef .tc main_v52)) (W6 m ρ c (Proc.devRef .tc main_v53)) := by
  show StableHlo.after hostOps4 (W6 m ρ c) (Proc.devRef .tc main_v56) = _
  after_results <;> rfl

/-! ## The add-and-clamp regions' exits -/

/-- The second add-and-clamp region's output array at its exit. -/
theorem out3 (c : Dev nD) : W6 m ρ c (Proc.devRef .tc main_v53) = (dat3 (V5 m ρ) c).arrAt 2 cfg3.N :=
  W6_arr m ρ c 2

/-- The first add-and-clamp region's output array: the second region leaves it alone. -/
theorem out2 (c : Dev nD) : W6 m ρ c (Proc.devRef .tc main_v52) = (dat2 (V4 m ρ) c).arrAt 2 cfg2.N :=
  (W6_of_ne m ρ c main_v52 (by decide)).trans (W5_arr m ρ c 2)

/-- The second region's operands are as the middle stretch left them: the first region writes neither. -/
theorem in3_lo (c : Dev nD) : V5 m ρ c main_v6 = W4 m ρ c (Proc.devRef .tc main_v6) :=
  W5_of_ne m ρ c main_v6 (by decide)
theorem in3_mean (c : Dev nD) : V5 m ρ c main_v51 = W4 m ρ c (Proc.devRef .tc main_v51) :=
  W5_of_ne m ρ c main_v51 (by decide)

/-! ## The middle host stretch -/

theorem mid_lo1 (c : Dev nD) : W4 m ρ c (Proc.devRef .tc main_v4) = Spec.colsLo (W3 m ρ c (Proc.devRef .tc main_v2)) := by
  show StableHlo.after hostOps2 (W3 m ρ c) (Proc.devRef .tc main_v4) = _
  after_results_simp <;> rfl
theorem mid_lo2 (c : Dev nD) : W4 m ρ c (Proc.devRef .tc main_v6) = Spec.colsLo (W3 m ρ c (Proc.devRef .tc main_v3)) := by
  show StableHlo.after hostOps2 (W3 m ρ c) (Proc.devRef .tc main_v6) = _
  after_results_simp <;> rfl
theorem mid_mean1 (c : Dev nD) :
    W4 m ρ c (Proc.devRef .tc main_v29)
      = Spec.neighbourMean (Spec.colsHi (W3 m ρ c (Proc.devRef .tc main_v2))) (W3 m ρ c (Proc.devRef .tc main_arg4)) := by
  show StableHlo.after hostOps2 (W3 m ρ c) (Proc.devRef .tc main_v29) = _
  after_results_simp <;> rfl
theorem mid_mean2 (c : Dev nD) :
    W4 m ρ c (Proc.devRef .tc main_v51)
      = Spec.neighbourMean (Spec.colsHi (W3 m ρ c (Proc.devRef .tc main_v3))) (W3 m ρ c (Proc.devRef .tc main_arg5)) := by
  show StableHlo.after hostOps2 (W3 m ρ c) (Proc.devRef .tc main_v51) = _
  after_results_simp <;> rfl

/-! ## The projection regions' exits, and what they were entered with -/

theorem proj2 (c : Dev nD) : W3 m ρ c (Proc.devRef .tc main_v3) = (dat1 (V2 m ρ) c).arrAt 2 cfg1.N :=
  W3_arr m ρ c 2
theorem proj1 (c : Dev nD) : W3 m ρ c (Proc.devRef .tc main_v2) = (dat0 (V1 m ρ) c).arrAt 2 cfg0.N :=
  (W3_of_ne m ρ c main_v2 (by decide)).trans (W2_arr m ρ c 2)

/-- The weight array the first stretch writes. -/
theorem w1 (c : Dev nD) :
    V1 m ρ c main_v1 = Spec.weights (m ((c : Thread nD τ).loc main_arg2)) (m ((c : Thread nD τ).loc main_arg3)) := by
  show StableHlo.after hostOps0 (W0 m ρ c) (Proc.devRef .tc main_v1) = _
  after_results <;> rfl
/-- The first projection region stages the weight array and never writes it back. -/
theorem w2 (c : Dev nD) :
    V2 m ρ c main_v1 = Spec.weights (m ((c : Thread nD τ).loc main_arg2)) (m ((c : Thread nD τ).loc main_arg3)) :=
  ((W2_arr m ρ c 1).trans (((dat0 (V1 m ρ) c).arrAt_in 1 rfl _).trans (A_eq0 (V1 m ρ) c 1))).trans (w1 m ρ c)

theorem z1 (c : Dev nD) : V1 m ρ c main_arg0 = m ((c : Thread nD τ).loc main_arg0) := by
  show StableHlo.after hostOps0 (W0 m ρ c) (Proc.devRef .tc main_arg0) = _
  after_results <;> rfl
theorem z2 (c : Dev nD) : V2 m ρ c main_arg1 = m ((c : Thread nD τ).loc main_arg1) := by
  refine (W2_of_ne m ρ c main_arg1 (by decide)).trans ?_
  show StableHlo.after hostOps0 (W0 m ρ c) (Proc.devRef .tc main_arg1) = _
  after_results <;> rfl

/-- The neighbour tables reach the middle stretch as launched. -/
theorem nb1 (c : Dev nD) : W3 m ρ c (Proc.devRef .tc main_arg4) = m ((c : Thread nD τ).loc main_arg4) := by
  refine (W3_of_ne m ρ c main_arg4 (by decide)).trans ((W2_of_ne m ρ c main_arg4 (by decide)).trans ?_)
  show StableHlo.after hostOps0 (W0 m ρ c) (Proc.devRef .tc main_arg4) = _
  after_results <;> rfl
theorem nb2 (c : Dev nD) : W3 m ρ c (Proc.devRef .tc main_arg5) = m ((c : Thread nD τ).loc main_arg5) := by
  refine (W3_of_ne m ρ c main_arg5 (by decide)).trans ((W2_of_ne m ρ c main_arg5 (by decide)).trans ?_)
  show StableHlo.after hostOps0 (W0 m ρ c) (Proc.devRef .tc main_arg5) = _
  after_results <;> rfl

end Cert.KernelIdeal.Chain

end
-- ==== Proof.RefTerm.lean ====
/-
  The reference's result, named piece by piece, and the pieces that are the kernel program's own.

  For one protein the reference computes max (Z · Wr + mean (Z · Wnr, nb), 0), where `mean` is the masked mean of gathered
  rows; the two proteins' results are stacked. The masked mean, the clamp of a sum and the stacking are the SAME
  operations, with the same dimension numbers, as the kernel program applies (there the clamp's zero is a splat scalar,
  here a broadcast rank-0 constant: one constant array either way). Only the two matrix products differ in form.
-/
import proofs.«127528_j27058293965311_1_alg».proof.Proof.Gen.ReferenceIdeal
import proofs.«127528_j27058293965311_1_alg».proof.Proof.Spec
import proofs.«127528_j27058293965311_1_alg».proof.Proof.Chain

noncomputable section

namespace Cert.ReferenceIdeal.Term

open Cert.ReferenceIdeal Cert.ReferenceIdeal.Gen Idealize.ShloMosaic Idealize.ShloMosaic.TcCoe

variable {F : FTy → Type} [FloatOps F]

/-- The reference's masked mean of gathered rows, as its program spells it. -/
def mean (tbl : (⟨S50000x256, .f32⟩ : BufTy).Contents (Elt F)) (nb : (⟨S50000x10, .i32⟩ : BufTy).Contents (Elt F)) :
    (⟨S50000x256, .f32⟩ : BufTy).Contents (Elt F) :=
  Host.divf
    (Host.reduceAdd
      (mulf
        (Host.gather gather_S50000x256_S50000x10x1_S50000x10x256_2_0_n_n_0_2_1256 tbl
          (broadcastInDim S50000x10x1 ![0, 1] bcast_S50000x10_S50000x10x1_0_1
            (select (cmpi .slt nb (broadcastInDim S50000x10 ![] bcast_S_S50000x10 (constantI S_ 32 0#32)))
              (addi nb (broadcastInDim S50000x10 ![] bcast_S_S50000x10 (constantI S_ 32 50000#32))) nb)))
        (broadcastInDim S50000x10x256 ![0, 1, 2] bcast_S50000x10x1_S50000x10x256_0_1_2
          (uitofp (F := F) .f32 (broadcastInDim S50000x10x1 ![0, 1] bcast_S50000x10_S50000x10x1_0_1
            (cmpi .sgt nb (broadcastInDim S50000x10 ![] bcast_S_S50000x10 (constantI S_ 32 4294967295#32)))))))
      (constant S_ .f32 0x00000000#32) reducesTo_S50000x10x256_S50000x256_d1 h_S_)
    (broadcastInDim S50000x256 ![0, 1] bcast_S50000x1_S50000x256_0_1
      (broadcastInDim S50000x1 ![0] bcast_S50000_S50000x1_0
        (sitofp (F := F) .f32
          (maxsi
            (Host.reduce IntOp.addi
              (extui 32 (cmpi .sgt nb (broadcastInDim S50000x10 ![] bcast_S_S50000x10 (constantI S_ 32 4294967295#32))) natLt_1_32)
              (constantI S_ 32 0#32) reducesTo_S50000x10_S50000_d1 h_S_)
            (broadcastInDim S50000 ![] bcast_S_S50000 (constantI S_ 32 1#32))))))

/-- The reference's clamp at zero. -/
def relu (x : (⟨S50000x256, .f32⟩ : BufTy).Contents (Elt F)) : (⟨S50000x256, .f32⟩ : BufTy).Contents (Elt F) :=
  maximumf x (broadcastInDim S50000x256 ![] bcast_S_S50000x256 (constant S_ .f32 0x00000000#32))

/-- The reference's stacking of the two proteins' results. -/
def stack (a b : (⟨S50000x256, .f32⟩ : BufTy).Contents (Elt F)) : (⟨S2x50000x256, .f32⟩ : BufTy).Contents (Elt F) :=
  concatenate S2x50000x256 0
    [⟨S1x50000x256, broadcastInDim S1x50000x256 ![1, 2] bcast_S50000x256_S1x50000x256_1_2 a⟩,
     ⟨S1x50000x256, broadcastInDim S1x50000x256 ![1, 2] bcast_S50000x256_S1x50000x256_1_2 b⟩]
    concatenates_S1x50000x256_S1x50000x256_S2x50000x256_d0

/-- One protein's result in the reference: max (Z · Wr + mean (Z · Wnr, nb), 0). -/
def protein (z : (⟨S50000x256, .f32⟩ : BufTy).Contents (Elt F)) (wr wnr : (⟨S256x256, .f32⟩ : BufTy).Contents (Elt F))
    (nb : (⟨S50000x10, .i32⟩ : BufTy).Contents (Elt F)) : (⟨S50000x256, .f32⟩ : BufTy).Contents (Elt F) :=
  relu (addf (Host.dotGeneral dot_S50000x256_S256x256_S50000x256_1_0_0_1_n_n none z wr)
    (mean (Host.dotGeneral dot_S50000x256_S256x256_S50000x256_1_0_0_1_n_n none z wnr) nb))

/-- The masked mean is the kernel program's, operation for operation. -/
theorem mean_eq (tbl : (⟨S50000x256, .f32⟩ : BufTy).Contents (Elt F)) (nb : (⟨S50000x10, .i32⟩ : BufTy).Contents (Elt F)) :
    mean tbl nb = Cert.KernelIdeal.Spec.neighbourMean tbl nb := rfl

/-- The clamp of a sum is the kernel's: the zero it clamps at is one constant array in either spelling. -/
theorem relu_add_eq (a b : (⟨S50000x256, .f32⟩ : BufTy).Contents (Elt F)) :
    relu (addf a b) = Cert.KernelIdeal.Spec.addRelu a b := rfl

/-- The stacking is the kernel program's. -/
theorem stack_eq (a b : (⟨S50000x256, .f32⟩ : BufTy).Contents (Elt F)) :
    stack a b = Cert.KernelIdeal.Chain.stacked a b := rfl

end Cert.ReferenceIdeal.Term

end
-- ==== Proof.Cols.lean ====
/-
  The projection against the two weight matrices side by side, read column by column on the extended reals.

  W = [Wr | Wnr] has W[k, j] = Wr[k, j] for j < 256 and W[k, j + 256] = Wnr[k, j]; a change of float format is the
  identity on the extended reals. So column j of the first 256 columns of Z · W is ∑ k, Z[i, k] · Wr[k, j], and column j
  of the last 256 is ∑ k, Z[i, k] · Wnr[k, j]: the same sums, term by term, as the two separate products.
-/
import proofs.«127528_j27058293965311_1_alg».proof.Proof.Spec
import Idealize.ShloMosaic.Lib.Pipeline.Value
import Idealize.ShloMosaic.Lib.ValueIdx
import Idealize.ShloMosaic.PureOps.Ideal.Laws

noncomputable section

namespace Cert.KernelIdeal.Cols

open Cert.KernelIdeal Cert.KernelIdeal.Gen Idealize.ShloMosaic Idealize.ShloMosaic.TcCoe Idealize.ShloMosaic.ValueIdx
open scoped BigOperators

/-- A left column of the side-by-side weights is the column of the first matrix. -/
theorem weights_lo (wr wnr : S256x256.Idx → EReal) (k : Fin 256) (j : Nat) (hj : j < 256) :
    Spec.weights (F := Ideal) wr wnr (ix2 k (⟨j, by omega⟩ : Fin 512)) = wr (ix2 k (⟨j, hj⟩ : Fin 256)) := by
  show concatenate S256x512 1 [⟨S256x256, wr⟩, ⟨S256x256, wnr⟩] concatenates_S256x256_S256x256_S256x512_d1
      (ix2 k (⟨j, by omega⟩ : Fin 512)) = _
  exact concatenate_pair_apply_left (1 : Fin S256x512.rank) wr wnr concatenates_S256x256_S256x256_S256x512_d1 _ rfl
    (ix2 k (⟨j, hj⟩ : Fin 256)) (fun b => by match b with | ⟨0, _⟩ => rfl | ⟨1, _⟩ => rfl)

/-- A right column of the side-by-side weights is the column of the second matrix. -/
theorem weights_hi (wr wnr : S256x256.Idx → EReal) (k : Fin 256) (j : Nat) (hj : j < 256) :
    Spec.weights (F := Ideal) wr wnr (ix2 k (⟨256 + j, by omega⟩ : Fin 512)) = wnr (ix2 k (⟨j, hj⟩ : Fin 256)) := by
  show concatenate S256x512 1 [⟨S256x256, wr⟩, ⟨S256x256, wnr⟩] concatenates_S256x256_S256x256_S256x512_d1
      (ix2 k (⟨256 + j, by omega⟩ : Fin 512)) = _
  exact concatenate_pair_apply_right (1 : Fin S256x512.rank) wr wnr concatenates_S256x256_S256x256_S256x512_d1 _ rfl rfl
    (ix2 k (⟨j, hj⟩ : Fin 256))
    (fun b hb => by match b with | ⟨0, _⟩ => rfl | ⟨1, _⟩ => exact absurd rfl hb)
    (by show j + 256 = 256 + j; omega)

/-- The first 256 columns of the projection are the product with the first matrix. -/
theorem colsLo_proj (z : S50000x256.Idx → EReal) (wr wnr : S256x256.Idx → EReal) (i : S50000x256.Idx) :
    Spec.colsLo (F := Ideal) (Spec.proj z (Spec.weights (F := Ideal) wr wnr)) i
      = ∑ k : Fin 256, z (ix2 (⟨(i 0).val, (i 0).isLt⟩ : Fin 50000) k) * wr (ix2 k (⟨(i 1).val, (i 1).isLt⟩ : Fin 256)) := by
  have h0 : (i 0).val < 50000 := (i 0).isLt
  have h1 : (i 1).val < 256 := (i 1).isLt
  unfold Spec.colsLo
  refine (extractStridedSlice_apply ![0, 0] _ slices_S50000x512_S50000x256_0_0 i
    (ix2 (⟨(i 0).val, h0⟩ : Fin 50000) (⟨(i 1).val, by omega⟩ : Fin 512))
    (fun a => by match a with
      | ⟨0, _⟩ => exact (Nat.zero_add _).symm
      | ⟨1, _⟩ => exact (Nat.zero_add _).symm)).trans ?_
  show (∑ k : Fin 256, z (ix2 (⟨(i 0).val, h0⟩ : Fin 50000) k) * Spec.weights (F := Ideal) wr wnr (ix2 k (⟨(i 1).val, by omega⟩ : Fin 512))) = _
  exact Finset.sum_congr rfl fun k _ => by rw [weights_lo wr wnr k (i 1).val h1]

/-- The last 256 columns of the projection are the product with the second matrix. -/
theorem colsHi_proj (z : S50000x256.Idx → EReal) (wr wnr : S256x256.Idx → EReal) (i : S50000x256.Idx) :
    Spec.colsHi (F := Ideal) (Spec.proj z (Spec.weights (F := Ideal) wr wnr)) i
      = ∑ k : Fin 256, z (ix2 (⟨(i 0).val, (i 0).isLt⟩ : Fin 50000) k) * wnr (ix2 k (⟨(i 1).val, (i 1).isLt⟩ : Fin 256)) := by
  have h0 : (i 0).val < 50000 := (i 0).isLt
  have h1 : (i 1).val < 256 := (i 1).isLt
  unfold Spec.colsHi
  refine (extractStridedSlice_apply ![0, 256] _ slices_S50000x512_S50000x256_0_256 i
    (ix2 (⟨(i 0).val, h0⟩ : Fin 50000) (⟨256 + (i 1).val, by omega⟩ : Fin 512))
    (fun a => by match a with
      | ⟨0, _⟩ => exact (Nat.zero_add _).symm
      | ⟨1, _⟩ => rfl)).trans ?_
  show (∑ k : Fin 256, z (ix2 (⟨(i 0).val, h0⟩ : Fin 50000) k) * Spec.weights (F := Ideal) wr wnr (ix2 k (⟨256 + (i 1).val, by omega⟩ : Fin 512))) = _
  exact Finset.sum_congr rfl fun k _ => by rw [weights_hi wr wnr k (i 1).val h1]

end Cert.KernelIdeal.Cols

end
-- ==== Proof.ProjRegion0.lean ====
/-
  The projection region. Grid point t stages rows 2000·t … 2000·t + 1999 of Z and the whole [256, 512] weight array, and
  writes back rows 2000·t … 2000·t + 1999 of Y; the 25 points tile the 50000 rows. On the extended reals the stored
  block is the matrix product into a zero accumulator, so each written element is ∑ k, Z[i, k] · W[k, j]: the array the
  region leaves is `Spec.proj` of the arrays it finds.

  In three steps. First the body's stored block at one element: the matrix product's operand indices at output index
  (p, q) and contraction index k are (p, k) and (k, q), so the element is ∑ k, x0[p, k] · x1[k, q]. Then what a grid point
  t writes back: element (p, q) of its block reads row 2000·t + p of Z and column q of W, which is element
  (2000·t + p, q) of the projection. Last, every index (r, q) of the output array lies in the block of point r / 2000,
  so the 25 written blocks make up the whole array.
-/
import proofs.«127528_j27058293965311_1_alg».proof.Proof.Gen.KernelIdeal.Frame
import proofs.«127528_j27058293965311_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Proj0

open Cert.KernelIdeal Cert.KernelIdeal.Gen Idealize.ShloMosaic Idealize.ShloMosaic.TcCoe Idealize.SL.Sem
open Idealize.ShloMosaic.Pipeline (Dat)
open scoped BigOperators

/-! ## The matrix product at an element -/

/-- The left operand's row is the output's row. -/
theorem lhs_row (j : S2000x512.Idx) (q : dot_S2000x256_S256x512_S2000x512_1_0_0_1_n_n.contr.Idx) :
    (dot_S2000x256_S256x512_S2000x512_1_0_0_1_n_n.lhsIdx j q 0).val = (j 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- The left operand's column is the contracted index. -/
theorem lhs_col (j : S2000x512.Idx) (q : dot_S2000x256_S256x512_S2000x512_1_0_0_1_n_n.contr.Idx) :
    (dot_S2000x256_S256x512_S2000x512_1_0_0_1_n_n.lhsIdx j q 1).val = (q ⟨0, by decide⟩).val :=
  dot_S2000x256_S256x512_S2000x512_1_0_0_1_n_n.lhsIdx_val_of_single rfl j q
/-- The right operand's row is the contracted index. -/
theorem rhs_row (j : S2000x512.Idx) (q : dot_S2000x256_S256x512_S2000x512_1_0_0_1_n_n.contr.Idx) :
    (dot_S2000x256_S256x512_S2000x512_1_0_0_1_n_n.rhsIdx j q 0).val = (q ⟨0, by decide⟩).val :=
  dot_S2000x256_S256x512_S2000x512_1_0_0_1_n_n.rhsIdx_val_of_single rfl j q
/-- The right operand's column is the output's column. -/
theorem rhs_col (j : S2000x512.Idx) (q : dot_S2000x256_S256x512_S2000x512_1_0_0_1_n_n.contr.Idx) :
    (dot_S2000x256_S256x512_S2000x512_1_0_0_1_n_n.rhsIdx j q 1).val = (j 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- Element (p, q) of the body's stored block is ∑ k, x0[p, k] · x1[k, q]: on the extended reals the narrowing of the
    left operand is the identity, the right operand's cast keeps its shape, and the accumulator is zero. -/
theorem pay_apply (x0 : Vec Ideal S2000x256 .f32) (x1 : Vec Ideal S256x512 .bf16) (j : S2000x512.Idx) :
    k0_pay1 (F := Ideal) x0 x1 j
      = ∑ k : Fin 256, x0 (ValueIdx.ix2 (⟨(j 0).val, (j 0).isLt⟩ : Fin 2000) k) * x1 (ValueIdx.ix2 k (⟨(j 1).val, (j 1).isLt⟩ : Fin 512)) := by
  unfold k0_pay1
  refine (Ideal.matmul_constant_zero_apply dot_S2000x256_S256x512_S2000x512_1_0_0_1_n_n none _ _ j).trans ?_
  rw [← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx j ((ValueIdx.contrEquiv1 dot_S2000x256_S256x512_S2000x512_1_0_0_1_n_n 256 rfl rfl).symm k) = ValueIdx.ix2 (⟨(j 0).val, (j 0).isLt⟩ : Fin 2000) k := funext fun a => Fin.ext (by
    match a with
    | ⟨0, _⟩ => exact lhs_row _ _
    | ⟨1, _⟩ => exact (lhs_col _ _).trans hk)
  have er : dot_S2000x256_S256x512_S2000x512_1_0_0_1_n_n.rhsIdx j ((ValueIdx.contrEquiv1 dot_S2000x256_S256x512_S2000x512_1_0_0_1_n_n 256 rfl rfl).symm k) = ValueIdx.ix2 k (⟨(j 1).val, (j 1).isLt⟩ : Fin 512) := funext fun a => Fin.ext (by
    match a with
    | ⟨0, _⟩ => exact (rhs_row _ _).trans hk
    | ⟨1, _⟩ => exact rhs_col _ _)
  rw [el, er, shapeCast_self]
  rfl

variable (V : (c : Dev nD) → (b : Ref sig .tc) → Buf (Elt Ideal) ((c : Thread nD τ).loc b))

/-! ## What one grid point writes back -/

theorem zero_offsets : (![0, 0] : Fin 2 → Nat) = fun _ => 0 := funext fun a => by fin_cases a <;> rfl

/-- The printed index maps, decided over the 25 grid points: point t stages row block t of the features, the whole weight
    array, and writes back row block t of the output; none of the three moves along the columns. -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT POINT t WRITES BACK is row block t of the projection of the arrays the region finds: element (p, q) of the stored
    block is ∑ k, Z[2000·t + p, k] · W[k, q], the staged feature block being rows 2000·t … of Z and the staged weight
    block all of W. -/
theorem flushed_eq (c : Dev nD) (t : Fin cfg0.N) :
    (dat0 (F := Ideal) V c).flushed 2 t
      = ((cfg0.win 2).blk t).view.read (Elt Ideal) (Spec.proj (V c main_arg0) (V c main_v1)) := by
  show (cfg0.win 2).cut (grid0.coords t) ((dat0 (F := Ideal) V c).after 2 t) = _
  rw [after0_2]
  unfold out0_2
  rw [View.canon_unit_zero zero_offsets]
  simp only [View.ld_unit_zero (S := S2000x256) zero_offsets, View.ld_unit_zero (S := S256x512) zero_offsets]
  obtain ⟨e00, e01, e10, e11, e20, e21⟩ := block_indices t
  funext j
  show k0_pay1 (F := Ideal) (iblk0 V c 0 t) (iblk0 V c 1 t) j
    = Spec.proj (V c main_arg0) (V c main_v1) (((cfg0.win 2).blk t).view.emb j)
  refine (pay_apply _ _ j).trans ?_
  refine Finset.sum_congr rfl fun k _ => ?_
  have h0 : ((cfg0.win 0).blk t).view.emb (ValueIdx.ix2 (⟨(j 0).val, (j 0).isLt⟩ : Fin 2000) k)
      = ValueIdx.ix2 (⟨((((cfg0.win 2).blk t).view.emb j) 0).val, ((((cfg0.win 2).blk t).view.emb j) 0).isLt⟩ : Fin 50000) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have h1 : ((cfg0.win 1).blk t).view.emb (ValueIdx.ix2 k (⟨(j 1).val, (j 1).isLt⟩ : Fin 512))
      = ValueIdx.ix2 k (⟨((((cfg0.win 2).blk t).view.emb j) 1).val, ((((cfg0.win 2).blk t).view.emb j) 1).isLt⟩ : Fin 512) := by
    funext a; apply Fin.ext
    match a with
    | ⟨0, _⟩ => show win0_1.index t (0 : Fin 2) * 256 + 1 * k.val = k.val; omega
    | ⟨1, _⟩ => show win0_1.index t (1 : Fin 2) * 512 + 1 * (j 1).val = win0_2.index t (1 : Fin 2) * 512 + 1 * (j 1).val; omega
  exact congrArg₂ (fun a b : EReal => a * b) (congrArg (V c main_arg0) h0) (congrArg (V c main_v1) h1)

/-! ## From the 25 blocks to the array -/

/-- An index of the output array is in point t's block iff each coordinate is in the block's range on its axis. -/
theorem mem_block (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v2).slice (win0_2.rect t)).set ↔ _
  rw [View.set_slice_whole, Rect.mem_set_unit]
  exact Iff.rfl

/-- The 25 row blocks of 2000 rows tile the 50000 rows, and each block spans all 512 columns: row r lies in the block
    of point r / 2000, which is written back. -/
theorem covered (i : S50000x512.Idx) :
    ∃ t : Fin cfg0.N, (cfg0.win 2).flush t = true ∧ i ∈ ((cfg0.win 2).blk t).view.set := by
  have hi0 : (i 0).val < 50000 := (i 0).isLt
  have hi1 : (i 1).val < 512 := (i 1).isLt
  have hN : grid0.N = 25 := N_0
  obtain ⟨t, ht⟩ : ∃ t : Fin cfg0.N, t.val = (i 0).val / 2000 :=
    ⟨⟨(i 0).val / 2000, by show (i 0).val / 2000 < grid0.N; omega⟩, rfl⟩
  obtain ⟨-, -, -, -, e20, e21⟩ := block_indices t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- The output array after the region's 25 write-backs is the projection of the arrays the region was entered with. -/
theorem arr (c : Dev nD) : (dat0 (F := Ideal) V c).arrAt 2 cfg0.N = Spec.proj (V c main_arg0) (V c main_v1) :=
  (dat0 (F := Ideal) V c).arrAt_eq_of_cover 2 (Spec.proj (V c main_arg0) (V c main_v1)) (fun t _ => flushed_eq V c t) covered

end Cert.KernelIdeal.Proj0

end
-- ==== Proof.ProjRegion1.lean ====
/-
  The projection region. Grid point t stages rows 2000·t … 2000·t + 1999 of Z and the whole [256, 512] weight array, and
  writes back rows 2000·t … 2000·t + 1999 of Y; the 25 points tile the 50000 rows. On the extended reals the stored
  block is the matrix product into a zero accumulator, so each written element is ∑ k, Z[i, k] · W[k, j]: the array the
  region leaves is `Spec.proj` of the arrays it finds.

  In three steps. First the body's stored block at one element: the matrix product's operand indices at output index
  (p, q) and contraction index k are (p, k) and (k, q), so the element is ∑ k, x0[p, k] · x1[k, q]. Then what a grid point
  t writes back: element (p, q) of its block reads row 2000·t + p of Z and column q of W, which is element
  (2000·t + p, q) of the projection. Last, every index (r, q) of the output array lies in the block of point r / 2000,
  so the 25 written blocks make up the whole array.
-/
import proofs.«127528_j27058293965311_1_alg».proof.Proof.Gen.KernelIdeal.Frame
import proofs.«127528_j27058293965311_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Proj1

open Cert.KernelIdeal Cert.KernelIdeal.Gen Idealize.ShloMosaic Idealize.ShloMosaic.TcCoe Idealize.SL.Sem
open Idealize.ShloMosaic.Pipeline (Dat)
open scoped BigOperators

/-! ## The matrix product at an element -/

/-- The left operand's row is the output's row. -/
theorem lhs_row (j : S2000x512.Idx) (q : dot_S2000x256_S256x512_S2000x512_1_0_0_1_n_n.contr.Idx) :
    (dot_S2000x256_S256x512_S2000x512_1_0_0_1_n_n.lhsIdx j q 0).val = (j 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- The left operand's column is the contracted index. -/
theorem lhs_col (j : S2000x512.Idx) (q : dot_S2000x256_S256x512_S2000x512_1_0_0_1_n_n.contr.Idx) :
    (dot_S2000x256_S256x512_S2000x512_1_0_0_1_n_n.lhsIdx j q 1).val = (q ⟨0, by decide⟩).val :=
  dot_S2000x256_S256x512_S2000x512_1_0_0_1_n_n.lhsIdx_val_of_single rfl j q
/-- The right operand's row is the contracted index. -/
theorem rhs_row (j : S2000x512.Idx) (q : dot_S2000x256_S256x512_S2000x512_1_0_0_1_n_n.contr.Idx) :
    (dot_S2000x256_S256x512_S2000x512_1_0_0_1_n_n.rhsIdx j q 0).val = (q ⟨0, by decide⟩).val :=
  dot_S2000x256_S256x512_S2000x512_1_0_0_1_n_n.rhsIdx_val_of_single rfl j q
/-- The right operand's column is the output's column. -/
theorem rhs_col (j : S2000x512.Idx) (q : dot_S2000x256_S256x512_S2000x512_1_0_0_1_n_n.contr.Idx) :
    (dot_S2000x256_S256x512_S2000x512_1_0_0_1_n_n.rhsIdx j q 1).val = (j 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- Element (p, q) of the body's stored block is ∑ k, x0[p, k] · x1[k, q]: on the extended reals the narrowing of the
    left operand is the identity, the right operand's cast keeps its shape, and the accumulator is zero. -/
theorem pay_apply (x0 : Vec Ideal S2000x256 .f32) (x1 : Vec Ideal S256x512 .bf16) (j : S2000x512.Idx) :
    k1_pay1 (F := Ideal) x0 x1 j
      = ∑ k : Fin 256, x0 (ValueIdx.ix2 (⟨(j 0).val, (j 0).isLt⟩ : Fin 2000) k) * x1 (ValueIdx.ix2 k (⟨(j 1).val, (j 1).isLt⟩ : Fin 512)) := by
  unfold k1_pay1
  refine (Ideal.matmul_constant_zero_apply dot_S2000x256_S256x512_S2000x512_1_0_0_1_n_n none _ _ j).trans ?_
  rw [← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx j ((ValueIdx.contrEquiv1 dot_S2000x256_S256x512_S2000x512_1_0_0_1_n_n 256 rfl rfl).symm k) = ValueIdx.ix2 (⟨(j 0).val, (j 0).isLt⟩ : Fin 2000) k := funext fun a => Fin.ext (by
    match a with
    | ⟨0, _⟩ => exact lhs_row _ _
    | ⟨1, _⟩ => exact (lhs_col _ _).trans hk)
  have er : dot_S2000x256_S256x512_S2000x512_1_0_0_1_n_n.rhsIdx j ((ValueIdx.contrEquiv1 dot_S2000x256_S256x512_S2000x512_1_0_0_1_n_n 256 rfl rfl).symm k) = ValueIdx.ix2 k (⟨(j 1).val, (j 1).isLt⟩ : Fin 512) := funext fun a => Fin.ext (by
    match a with
    | ⟨0, _⟩ => exact (rhs_row _ _).trans hk
    | ⟨1, _⟩ => exact rhs_col _ _)
  rw [el, er, shapeCast_self]
  rfl

variable (V : (c : Dev nD) → (b : Ref sig .tc) → Buf (Elt Ideal) ((c : Thread nD τ).loc b))

/-! ## What one grid point writes back -/

theorem zero_offsets : (![0, 0] : Fin 2 → Nat) = fun _ => 0 := funext fun a => by fin_cases a <;> rfl

/-- The printed index maps, decided over the 25 grid points: point t stages row block t of the features, the whole weight
    array, and writes back row block t of the output; none of the three moves along the columns. -/
theorem block_indices : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- WHAT POINT t WRITES BACK is row block t of the projection of the arrays the region finds: element (p, q) of the stored
    block is ∑ k, Z[2000·t + p, k] · W[k, q], the staged feature block being rows 2000·t … of Z and the staged weight
    block all of W. -/
theorem flushed_eq (c : Dev nD) (t : Fin cfg1.N) :
    (dat1 (F := Ideal) V c).flushed 2 t
      = ((cfg1.win 2).blk t).view.read (Elt Ideal) (Spec.proj (V c main_arg1) (V c main_v1)) := by
  show (cfg1.win 2).cut (grid1.coords t) ((dat1 (F := Ideal) V c).after 2 t) = _
  rw [after1_2]
  unfold out1_2
  rw [View.canon_unit_zero zero_offsets]
  simp only [View.ld_unit_zero (S := S2000x256) zero_offsets, View.ld_unit_zero (S := S256x512) zero_offsets]
  obtain ⟨e00, e01, e10, e11, e20, e21⟩ := block_indices t
  funext j
  show k1_pay1 (F := Ideal) (iblk1 V c 0 t) (iblk1 V c 1 t) j
    = Spec.proj (V c main_arg1) (V c main_v1) (((cfg1.win 2).blk t).view.emb j)
  refine (pay_apply _ _ j).trans ?_
  refine Finset.sum_congr rfl fun k _ => ?_
  have h0 : ((cfg1.win 0).blk t).view.emb (ValueIdx.ix2 (⟨(j 0).val, (j 0).isLt⟩ : Fin 2000) k)
      = ValueIdx.ix2 (⟨((((cfg1.win 2).blk t).view.emb j) 0).val, ((((cfg1.win 2).blk t).view.emb j) 0).isLt⟩ : Fin 50000) k := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  have h1 : ((cfg1.win 1).blk t).view.emb (ValueIdx.ix2 k (⟨(j 1).val, (j 1).isLt⟩ : Fin 512))
      = ValueIdx.ix2 k (⟨((((cfg1.win 2).blk t).view.emb j) 1).val, ((((cfg1.win 2).blk t).view.emb j) 1).isLt⟩ : Fin 512) := by
    funext a; apply Fin.ext
    match a with
    | ⟨0, _⟩ => show win1_1.index t (0 : Fin 2) * 256 + 1 * k.val = k.val; omega
    | ⟨1, _⟩ => show win1_1.index t (1 : Fin 2) * 512 + 1 * (j 1).val = win1_2.index t (1 : Fin 2) * 512 + 1 * (j 1).val; omega
  exact congrArg₂ (fun a b : EReal => a * b) (congrArg (V c main_arg1) h0) (congrArg (V c main_v1) h1)

/-! ## From the 25 blocks to the array -/

/-- An index of the output array is in point t's block iff each coordinate is in the block's range on its axis. -/
theorem mem_block (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v3).slice (win1_2.rect t)).set ↔ _
  rw [View.set_slice_whole, Rect.mem_set_unit]
  exact Iff.rfl

/-- The 25 row blocks of 2000 rows tile the 50000 rows, and each block spans all 512 columns: row r lies in the block
    of point r / 2000, which is written back. -/
theorem covered (i : S50000x512.Idx) :
    ∃ t : Fin cfg1.N, (cfg1.win 2).flush t = true ∧ i ∈ ((cfg1.win 2).blk t).view.set := by
  have hi0 : (i 0).val < 50000 := (i 0).isLt
  have hi1 : (i 1).val < 512 := (i 1).isLt
  have hN : grid1.N = 25 := N_1
  obtain ⟨t, ht⟩ : ∃ t : Fin cfg1.N, t.val = (i 0).val / 2000 :=
    ⟨⟨(i 0).val / 2000, by show (i 0).val / 2000 < grid1.N; omega⟩, rfl⟩
  obtain ⟨-, -, -, -, e20, e21⟩ := block_indices t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 512 ≤ (i 1).val ∧ (i 1).val < win1_2.index t (1 : Fin 2) * 512 + 512; omega

/-- The output array after the region's 25 write-backs is the projection of the arrays the region was entered with. -/
theorem arr (c : Dev nD) : (dat1 (F := Ideal) V c).arrAt 2 cfg1.N = Spec.proj (V c main_arg1) (V c main_v1) :=
  (dat1 (F := Ideal) V c).arrAt_eq_of_cover 2 (Spec.proj (V c main_arg1) (V c main_v1)) (fun t _ => flushed_eq V c t) covered

end Cert.KernelIdeal.Proj1

end
-- ==== Proof.AddReluRegion2.lean ====
/-
  The add-and-clamp region. Grid point t stages rows 2000·t … 2000·t + 1999 of both operands and writes back the same
  rows of the result; the 25 points tile the 50000 rows. The stored block is max (a + b) 0 element by element, so the
  array the region leaves is `Spec.addRelu` of the two arrays it finds.

  The steps: the stored block as a function of the two staged blocks (`pay_eq`); the index maps over the grid
  (`block_index`); what one point writes back, as its block of the whole-array function (`flushed_eq`); which indices a
  point's block holds (`mem_block`); every index is in some point's block (`covered`); hence the whole array (`arr`).
-/
import proofs.«127528_j27058293965311_1_alg».proof.Proof.Gen.KernelIdeal.Frame
import proofs.«127528_j27058293965311_1_alg».proof.Proof.Spec
import Idealize.ShloMosaic.Lib.Pipeline.Value

set_option maxRecDepth 16384

noncomputable section

namespace Cert.KernelIdeal.AddRelu2

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The block's origin [0, 0] is the zero offset on both axes. -/
theorem origin_zero : (![0, 0] : Fin 2 → Nat) = fun _ => 0 := funext fun a => by fin_cases a <;> rfl

/-- The stored block is max (x0 + x1) 0 of the two staged blocks, element by element: the two casts are to the
    blocks' own shape [2000, 256] and change nothing. -/
theorem pay_eq (x0 x1 : Vec F S2000x256 .f32) :
    k2_pay1 x0 x1 = maximumf (addf x0 x1) (broadcast S2000x256 (Scalar.ofBits .f32 0x00000000#32)) := by
  unfold k2_pay1
  rw [shapeCast_self, shapeCast_self]

/-- The three index maps, decided over the 25 grid points: point t takes block row t and block column 0 of both
    operands and of the result. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point t writes back is rows 2000·t … 2000·t + 1999 of max (a + b) 0 of the two arrays the region finds:
    element (r, k) of the stored block is max (a[2000·t + r, k] + b[2000·t + r, k]) 0, since both operand blocks sit at
    the result block's own position. -/
theorem flushed_eq (c : Dev nD) (t : Fin cfg2.N) :
    (dat2 V c).flushed 2 t = ((cfg2.win 2).blk t).view.read (Elt F) (Spec.addRelu (V c main_v4) (V c main_v29)) := by
  show (cfg2.win 2).cut (grid2.coords t) ((dat2 V c).after 2 t) = _
  rw [after2_2]
  unfold out2_2
  rw [View.canon_unit_zero origin_zero]
  simp only [View.ld_unit_zero (S := S2000x256) origin_zero]
  rw [pay_eq]
  obtain ⟨e00, e01, e10, e11, e20, e21⟩ := block_index t
  funext j
  show FloatOps.maximumf (FloatOps.addf (V c main_v4 (((cfg2.win 0).blk t).view.emb j)) (V c main_v29 (((cfg2.win 1).blk t).view.emb j))) (Scalar.ofBits .f32 0x00000000#32)
     = FloatOps.maximumf (FloatOps.addf (V c main_v4 (((cfg2.win 2).blk t).view.emb j)) (V c main_v29 (((cfg2.win 2).blk t).view.emb j))) (Scalar.ofBits .f32 0x00000000#32)
  have h0 : ((cfg2.win 0).blk t).view.emb j = ((cfg2.win 2).blk t).view.emb j := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 256 + 1 * (j 1).val = win2_2.index t (1 : Fin 2) * 256 + 1 * (j 1).val; omega
  have h1 : ((cfg2.win 1).blk t).view.emb j = ((cfg2.win 2).blk t).view.emb j := by
    funext a; apply Fin.ext
    match a with
    | ⟨0, _⟩ => show win2_1.index t (0 : Fin 2) * 2000 + 1 * (j 0).val = win2_2.index t (0 : Fin 2) * 2000 + 1 * (j 0).val; omega
    | ⟨1, _⟩ => show win2_1.index t (1 : Fin 2) * 256 + 1 * (j 1).val = win2_2.index t (1 : Fin 2) * 256 + 1 * (j 1).val; omega
  rw [h0, h1]

/-- An index of the [50000, 256] array is in point t's block iff each coordinate is in the block's range on its axis. -/
theorem mem_block (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v52).slice (win2_2.rect t)).set ↔ _
  rw [View.set_slice_whole, Rect.mem_set_unit]
  exact Iff.rfl

/-- The 25 blocks of 2000 rows tile the 50000 rows: row r is in the block of point r / 2000, and the single block
    column holds all 256 columns. -/
theorem covered (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 25 := N_2
  obtain ⟨t, ht⟩ : ∃ t : Fin cfg2.N, t.val = (i 0).val / 2000 := ⟨⟨(i 0).val / 2000, by omega⟩, rfl⟩
  refine ⟨t, flush2_2 t, ?_⟩
  rw [mem_block]
  obtain ⟨-, -, -, -, e0, e1⟩ := block_index t
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- The output array after the region's 25 write-backs is max (a + b) 0 of the two arrays the region was entered with. -/
theorem arr (c : Dev nD) : (dat2 V c).arrAt 2 cfg2.N = Spec.addRelu (V c main_v4) (V c main_v29) :=
  (dat2 V c).arrAt_eq_of_cover 2 (Spec.addRelu (V c main_v4) (V c main_v29)) (fun t _ => flushed_eq V c t) covered

end Cert.KernelIdeal.AddRelu2

end
-- ==== Proof.AddReluRegion3.lean ====
/-
  The add-and-clamp region. Grid point t stages rows 2000·t … 2000·t + 1999 of both operands and writes back the same
  rows of the result; the 25 points tile the 50000 rows. The stored block is max (a + b) 0 element by element, so the
  array the region leaves is `Spec.addRelu` of the two arrays it finds.

  The steps: the stored block as a function of the two staged blocks (`pay_eq`); the index maps over the grid
  (`block_index`); what one point writes back, as its block of the whole-array function (`flushed_eq`); which indices a
  point's block holds (`mem_block`); every index is in some point's block (`covered`); hence the whole array (`arr`).
-/
import proofs.«127528_j27058293965311_1_alg».proof.Proof.Gen.KernelIdeal.Frame
import proofs.«127528_j27058293965311_1_alg».proof.Proof.Spec
import Idealize.ShloMosaic.Lib.Pipeline.Value

set_option maxRecDepth 16384

noncomputable section

namespace Cert.KernelIdeal.AddRelu3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The block's origin [0, 0] is the zero offset on both axes. -/
theorem origin_zero : (![0, 0] : Fin 2 → Nat) = fun _ => 0 := funext fun a => by fin_cases a <;> rfl

/-- The stored block is max (x0 + x1) 0 of the two staged blocks, element by element: the two casts are to the
    blocks' own shape [2000, 256] and change nothing. -/
theorem pay_eq (x0 x1 : Vec F S2000x256 .f32) :
    k3_pay1 x0 x1 = maximumf (addf x0 x1) (broadcast S2000x256 (Scalar.ofBits .f32 0x00000000#32)) := by
  unfold k3_pay1
  rw [shapeCast_self, shapeCast_self]

/-- The three index maps, decided over the 25 grid points: point t takes block row t and block column 0 of both
    operands and of the result. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is rows 2000·t … 2000·t + 1999 of max (a + b) 0 of the two arrays the region finds:
    element (r, k) of the stored block is max (a[2000·t + r, k] + b[2000·t + r, k]) 0, since both operand blocks sit at
    the result block's own position. -/
theorem flushed_eq (c : Dev nD) (t : Fin cfg3.N) :
    (dat3 V c).flushed 2 t = ((cfg3.win 2).blk t).view.read (Elt F) (Spec.addRelu (V c main_v6) (V c main_v51)) := by
  show (cfg3.win 2).cut (grid3.coords t) ((dat3 V c).after 2 t) = _
  rw [after3_2]
  unfold out3_2
  rw [View.canon_unit_zero origin_zero]
  simp only [View.ld_unit_zero (S := S2000x256) origin_zero]
  rw [pay_eq]
  obtain ⟨e00, e01, e10, e11, e20, e21⟩ := block_index t
  funext j
  show FloatOps.maximumf (FloatOps.addf (V c main_v6 (((cfg3.win 0).blk t).view.emb j)) (V c main_v51 (((cfg3.win 1).blk t).view.emb j))) (Scalar.ofBits .f32 0x00000000#32)
     = FloatOps.maximumf (FloatOps.addf (V c main_v6 (((cfg3.win 2).blk t).view.emb j)) (V c main_v51 (((cfg3.win 2).blk t).view.emb j))) (Scalar.ofBits .f32 0x00000000#32)
  have h0 : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 256 + 1 * (j 1).val = win3_2.index t (1 : Fin 2) * 256 + 1 * (j 1).val; omega
  have h1 : ((cfg3.win 1).blk t).view.emb j = ((cfg3.win 2).blk t).view.emb j := by
    funext a; apply Fin.ext
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 256 + 1 * (j 1).val = win3_2.index t (1 : Fin 2) * 256 + 1 * (j 1).val; omega
  rw [h0, h1]

/-- An index of the [50000, 256] array is in point t's block iff each coordinate is in the block's range on its axis. -/
theorem mem_block (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v53).slice (win3_2.rect t)).set ↔ _
  rw [View.set_slice_whole, Rect.mem_set_unit]
  exact Iff.rfl

/-- The 25 blocks of 2000 rows tile the 50000 rows: row r is in the block of point r / 2000, and the single block
    column holds all 256 columns. -/
theorem covered (i : S50000x256.Idx) :
    ∃ t : Fin cfg3.N, (cfg3.win 2).flush t = true ∧ i ∈ ((cfg3.win 2).blk t).view.set := by
  have hi0 : (i 0).val < 50000 := (i 0).isLt
  have hi1 : (i 1).val < 256 := (i 1).isLt
  have hN : cfg3.N = 25 := N_3
  obtain ⟨t, ht⟩ : ∃ t : Fin cfg3.N, t.val = (i 0).val / 2000 := ⟨⟨(i 0).val / 2000, by omega⟩, rfl⟩
  refine ⟨t, flush3_2 t, ?_⟩
  rw [mem_block]
  obtain ⟨-, -, -, -, e0, e1⟩ := block_index t
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- The output array after the region's 25 write-backs is max (a + b) 0 of the two arrays the region was entered with. -/
theorem arr (c : Dev nD) : (dat3 V c).arrAt 2 cfg3.N = Spec.addRelu (V c main_v6) (V c main_v51) :=
  (dat3 V c).arrAt_eq_of_cover 2 (Spec.addRelu (V c main_v6) (V c main_v51)) (fun t _ => flushed_eq V c t) covered

end Cert.KernelIdeal.AddRelu3

end
-- ==== Proof.KValue.lean ====
/-
  The kernel program's result on the extended reals, as one function of its arguments.

  Reading the result buffer back through the seven segments: it is the stacking of two arrays, protein 1's and protein 2's;
  each is max (lo + mean hi, 0) where lo and hi are the first and the last 256 columns of that protein's projection
  Z · [Wr | Wnr] and `mean` is the masked mean of the rows of hi gathered by that protein's neighbour table.
-/
import proofs.«127528_j27058293965311_1_alg».proof.Proof.Chain
import proofs.«127528_j27058293965311_1_alg».proof.Proof.ProjRegion0
import proofs.«127528_j27058293965311_1_alg».proof.Proof.ProjRegion1
import proofs.«127528_j27058293965311_1_alg».proof.Proof.AddReluRegion2
import proofs.«127528_j27058293965311_1_alg».proof.Proof.AddReluRegion3

set_option maxRecDepth 16384

noncomputable section

namespace Cert.KernelIdeal.KValue

open Cert.KernelIdeal Cert.KernelIdeal.Gen Idealize.ShloMosaic Idealize.ShloMosaic.TcCoe Idealize.SL.Sem

/-- One protein's result in the kernel program: max (lo + mean (hi, nb), 0) of its projection's two column halves. -/
def protein (z : S50000x256.Idx → EReal) (wr wnr : S256x256.Idx → EReal)
    (nb : (⟨S50000x10, .i32⟩ : BufTy).Contents (Elt Ideal)) : S50000x256.Idx → EReal :=
  Spec.addRelu (F := Ideal) (Spec.colsLo (F := Ideal) (Spec.proj z (Spec.weights (F := Ideal) wr wnr)))
    (Spec.neighbourMean (F := Ideal) (Spec.colsHi (F := Ideal) (Spec.proj z (Spec.weights (F := Ideal) wr wnr))) nb)

variable (m : (ℓ : Loc nD τ sig) → Buf (Elt Ideal) ℓ) (ρ : Dev nD → PrngReg)

/-- The first protein's projection array, as the middle host stretch finds it. -/
theorem proj_first (c : Dev nD) :
    W3 (F := Ideal) m ρ c (Proc.devRef .tc main_v2)
      = Spec.proj (m ((c : Thread nD τ).loc main_arg0))
          (Spec.weights (F := Ideal) (m ((c : Thread nD τ).loc main_arg2)) (m ((c : Thread nD τ).loc main_arg3))) := by
  rw [Chain.proj1, Proj0.arr, Chain.z1, Chain.w1]

/-- The second protein's projection array. -/
theorem proj_second (c : Dev nD) :
    W3 (F := Ideal) m ρ c (Proc.devRef .tc main_v3)
      = Spec.proj (m ((c : Thread nD τ).loc main_arg1))
          (Spec.weights (F := Ideal) (m ((c : Thread nD τ).loc main_arg2)) (m ((c : Thread nD τ).loc main_arg3))) := by
  rw [Chain.proj2, Proj1.arr, Chain.z2, Chain.w2]

/-- The result buffer after @main: the two proteins' results stacked, each a function of the launch contents of the
    arguments. -/
theorem value (c : Dev nD) :
    W7 (F := Ideal) m ρ c (Proc.devRef .tc main_v56)
      = Chain.stacked (F := Ideal)
          (protein (m ((c : Thread nD τ).loc main_arg0)) (m ((c : Thread nD τ).loc main_arg2)) (m ((c : Thread nD τ).loc main_arg3))
            (m ((c : Thread nD τ).loc main_arg4)))
          (protein (m ((c : Thread nD τ).loc main_arg1)) (m ((c : Thread nD τ).loc main_arg2)) (m ((c : Thread nD τ).loc main_arg3))
            (m ((c : Thread nD τ).loc main_arg5))) := by
  rw [Chain.last, Chain.out2, Chain.out3, AddRelu2.arr, AddRelu3.arr, Chain.in3_lo, Chain.in3_mean]
  show Chain.stacked (F := Ideal)
      (Spec.addRelu (F := Ideal) (W4 m ρ c (Proc.devRef .tc main_v4)) (W4 m ρ c (Proc.devRef .tc main_v29)))
      (Spec.addRelu (F := Ideal) (W4 m ρ c (Proc.devRef .tc main_v6)) (W4 m ρ c (Proc.devRef .tc main_v51))) = _
  rw [Chain.mid_lo1, Chain.mid_mean1, Chain.mid_lo2, Chain.mid_mean2, proj_first, proj_second, Chain.nb1, Chain.nb2]
  rfl

end Cert.KernelIdeal.KValue

end
-- ==== Proof.Bridge.lean ====
/-
  The two programs compute one function on the extended reals.

  The only place they differ in form is the matrix product: the reference multiplies Z by Wr and by Wnr separately, the
  kernel program multiplies Z once by [Wr | Wnr] and takes the two column halves. Element (i, j) of Z · Wr is
  ∑ k, Z[i, k] · Wr[k, j], and so is element (i, j) of the first half of Z · [Wr | Wnr], because column j of [Wr | Wnr] is
  column j of Wr; likewise for Wnr and the second half. Sums of products of the same terms: no law of the extended
  reals beyond reading the sums is used, so the precondition is never opened. Everything after the products — the
  masked mean of gathered rows, the clamp of the sum, the stacking — is the same operations on both sides.
-/
import proofs.«127528_j27058293965311_1_alg».proof.Proof.RefTerm
import proofs.«127528_j27058293965311_1_alg».proof.Proof.RefRead
import proofs.«127528_j27058293965311_1_alg».proof.Proof.Cols
import proofs.«127528_j27058293965311_1_alg».proof.Proof.KValue

noncomputable section

namespace Cert.Bridge

open Idealize.ShloMosaic Idealize.ShloMosaic.TcCoe Idealize.ShloMosaic.ValueIdx
open scoped BigOperators

/-- The reference's matrix product at an element: `(Z · W)[i, j] = ∑ k, Z[i, k] · W[k, j]`. -/
theorem dot_apply (z : (⟨Cert.ReferenceIdeal.S50000x256, .f32⟩ : BufTy).Contents (Elt Ideal)) (w : (⟨Cert.ReferenceIdeal.S256x256, .f32⟩ : BufTy).Contents (Elt Ideal))
    (i : Cert.ReferenceIdeal.S50000x256.Idx) :
    Host.dotGeneral (F := Ideal) (φ₁ := .f32) (φ₂ := .f32) Cert.ReferenceIdeal.dot_S50000x256_S256x256_S50000x256_1_0_0_1_n_n none z w i
      = ∑ k : Fin 256, z (ix2 (⟨(i 0).val, (i 0).isLt⟩ : Fin 50000) k) * w (ix2 k (⟨(i 1).val, (i 1).isLt⟩ : Fin 256)) := by
  refine (Cert.ReferenceIdeal.ReadP.val_main_v0_apply z w i).trans (Finset.sum_congr rfl fun k _ => ?_)
  have el : Cert.ReferenceIdeal.ReadP.lidx_main_v0 i k = ix2 (⟨(i 0).val, (i 0).isLt⟩ : Fin 50000) k :=
    funext fun a => by match a with | ⟨0, _⟩ => rfl | ⟨1, _⟩ => rfl
  have er : Cert.ReferenceIdeal.ReadP.ridx_main_v0 i k = ix2 k (⟨(i 1).val, (i 1).isLt⟩ : Fin 256) :=
    funext fun a => by match a with | ⟨0, _⟩ => rfl | ⟨1, _⟩ => rfl
  rw [el, er]

/-- Z · Wr is the first 256 columns of Z · [Wr | Wnr]. -/
theorem dot_lo (z : (⟨Cert.ReferenceIdeal.S50000x256, .f32⟩ : BufTy).Contents (Elt Ideal)) (wr wnr : (⟨Cert.ReferenceIdeal.S256x256, .f32⟩ : BufTy).Contents (Elt Ideal)) :
    Host.dotGeneral (F := Ideal) (φ₁ := .f32) (φ₂ := .f32) Cert.ReferenceIdeal.dot_S50000x256_S256x256_S50000x256_1_0_0_1_n_n none z wr
      = Cert.KernelIdeal.Spec.colsLo (F := Ideal) (Cert.KernelIdeal.Spec.proj z (Cert.KernelIdeal.Spec.weights (F := Ideal) wr wnr)) :=
  funext fun i => (dot_apply z wr i).trans (Cert.KernelIdeal.Cols.colsLo_proj z wr wnr i).symm

/-- Z · Wnr is the last 256 columns of Z · [Wr | Wnr]. -/
theorem dot_hi (z : (⟨Cert.ReferenceIdeal.S50000x256, .f32⟩ : BufTy).Contents (Elt Ideal)) (wr wnr : (⟨Cert.ReferenceIdeal.S256x256, .f32⟩ : BufTy).Contents (Elt Ideal)) :
    Host.dotGeneral (F := Ideal) (φ₁ := .f32) (φ₂ := .f32) Cert.ReferenceIdeal.dot_S50000x256_S256x256_S50000x256_1_0_0_1_n_n none z wnr
      = Cert.KernelIdeal.Spec.colsHi (F := Ideal) (Cert.KernelIdeal.Spec.proj z (Cert.KernelIdeal.Spec.weights (F := Ideal) wr wnr)) :=
  funext fun i => (dot_apply z wnr i).trans (Cert.KernelIdeal.Cols.colsHi_proj z wr wnr i).symm

/-- One protein: the reference's max (Z · Wr + mean (Z · Wnr, nb), 0) is the kernel program's
    max (lo + mean (hi, nb), 0). -/
theorem protein_eq (z : (⟨Cert.ReferenceIdeal.S50000x256, .f32⟩ : BufTy).Contents (Elt Ideal)) (wr wnr : (⟨Cert.ReferenceIdeal.S256x256, .f32⟩ : BufTy).Contents (Elt Ideal))
    (nb : (⟨Cert.ReferenceIdeal.S50000x10, .i32⟩ : BufTy).Contents (Elt Ideal)) :
    Cert.ReferenceIdeal.Term.protein (F := Ideal) z wr wnr nb = Cert.KernelIdeal.KValue.protein z wr wnr nb := by
  unfold Cert.ReferenceIdeal.Term.protein Cert.KernelIdeal.KValue.protein
  rw [Cert.ReferenceIdeal.Term.relu_add_eq, Cert.ReferenceIdeal.Term.mean_eq, dot_lo z wr wnr, dot_hi z wr wnr]

/-- The two stacked results are equal. -/
theorem result_eq (z1 z2 : (⟨Cert.ReferenceIdeal.S50000x256, .f32⟩ : BufTy).Contents (Elt Ideal)) (wr wnr : (⟨Cert.ReferenceIdeal.S256x256, .f32⟩ : BufTy).Contents (Elt Ideal))
    (n1 n2 : (⟨Cert.ReferenceIdeal.S50000x10, .i32⟩ : BufTy).Contents (Elt Ideal)) :
    Cert.ReferenceIdeal.Term.stack (F := Ideal) (Cert.ReferenceIdeal.Term.protein (F := Ideal) z1 wr wnr n1)
        (Cert.ReferenceIdeal.Term.protein (F := Ideal) z2 wr wnr n2)
      = Cert.KernelIdeal.Chain.stacked (F := Ideal) (Cert.KernelIdeal.KValue.protein z1 wr wnr n1)
          (Cert.KernelIdeal.KValue.protein z2 wr wnr n2) := by
  rw [Cert.ReferenceIdeal.Term.stack_eq, protein_eq, protein_eq]

end Cert.Bridge

end
-- ==== Proof.lean ====
/-
  Two graph-network layers — for each of two proteins, relu (Z · Wr + mean over the listed neighbours of the rows of
  Z · Wnr), the two results stacked — computed by a tiled program and by its plain reference, are one function on the
  extended reals.

  The tiled program multiplies Z once by the two weight matrices side by side, in 25 row blocks of 2000 rows, takes the
  first and the last 256 columns of the product, forms the masked mean of gathered rows with the same host operations as
  the reference, and adds and clamps in 25 row blocks again. Each kernel region leaves in its output array one
  whole-array function of the arrays it finds (the row blocks tile the 50000 rows); the host stretches between the
  regions are read off operation by operation; and column j of Z · [Wr | Wnr] is column j of Z · Wr, column 256 + j
  is column j of Z · Wnr, sum for sum. No law of the extended reals that needs finiteness is used, so the precondition
  is never opened. The idealization rewrote no operation, so there is nothing to preserve.
-/
import proofs.«127528_j27058293965311_1_alg».proof.Defs
import proofs.«127528_j27058293965311_1_alg».proof.Proof.Gen.Kernel
import proofs.«127528_j27058293965311_1_alg».proof.Proof.Gen.Kernel.Frame
import proofs.«127528_j27058293965311_1_alg».proof.Proof.Gen.KernelIdeal
import proofs.«127528_j27058293965311_1_alg».proof.Proof.Gen.KernelIdeal.Frame
import proofs.«127528_j27058293965311_1_alg».proof.Proof.Gen.ReferenceIdeal
import proofs.«127528_j27058293965311_1_alg».proof.Proof.Gen.Pre_finite_inputs
import proofs.«127528_j27058293965311_1_alg».proof.Proof.KRun
import proofs.«127528_j27058293965311_1_alg».proof.Proof.RefRun
import proofs.«127528_j27058293965311_1_alg».proof.Proof.Bridge
import Idealize.ShloMosaic.Adequacy
import Idealize.ShloMosaic.Init

noncomputable section

namespace Cert.Proof

open Idealize.ShloMosaic Idealize.SL.Sem

/-- The word-level program runs, faults nowhere, and leaves its arguments as launched. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the two proteins' results stacked, each
    max (lo + mean (hi, nb), 0) of the projection's column halves: the kernel program's run read back through its
    segments, and the reference's run with its two products rewritten as those halves. -/
theorem algebraic : Cert.algebraic_KernelIdeal_ReferenceIdeal := by
  intro m ρ m' ρ' _ hagree
  refine ⟨fun c => Cert.KernelIdeal.Chain.stacked (F := Ideal)
      (Cert.KernelIdeal.KValue.protein (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.KernelIdeal.KValue.protein (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5))),
    ?_, ?_⟩
  · exact (θ_run Cert.KernelIdeal.defs _ _).mono
      (fun r h c => ⟨(h c).1.trans (Cert.KernelIdeal.KValue.value m ρ c), (h c).2⟩)
      (Cert.KernelIdeal.GenP.run_named (F := Ideal) m ρ)
  · refine (θ_run Cert.ReferenceIdeal.defs _ _).mono (fun r h c => ⟨(h c).1.trans ?_, (h c).2⟩)
      (Cert.ReferenceIdeal.ValueP.run (F := Ideal) m' ρ')
    rw [(hagree c).1, (hagree c).2.1, (hagree c).2.2.1, (hagree c).2.2.2.1, (hagree c).2.2.2.2.1, (hagree c).2.2.2.2.2]
    exact Cert.Bridge.result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
